-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S100000x128 .f32) (main_arg1 : IVec S2x800000 32) (main_arg2 : FVec F S128x256 .f32) (main_arg3 : FVec F S256 .f32) (main_arg4 : FVec F S256x256 .f32) (main_arg5 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x256 : Shape := ⟨2, ![100000, 256]⟩
abbrev S4000x128 : Shape := ⟨2, ![4000, 128]⟩
abbrev S4000x256 : Shape := ⟨2, ![4000, 256]⟩
abbrev S900000x256 : Shape := ⟨2, ![900000, 256]⟩
abbrev S1x256 : Shape := ⟨2, ![1, 256]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S900000, .i32⟩
  | .hbm, ⟨29, _⟩ => ⟨S900000, .i1⟩
  | .hbm, ⟨30, _⟩ => ⟨S_, .i32⟩
  | .hbm, ⟨31, _⟩ => ⟨S900000, .i32⟩
  | .hbm, ⟨32, _⟩ => ⟨S900000, .i32⟩
  | .hbm, ⟨33, _⟩ => ⟨S900000, .i32⟩
  | .hbm, ⟨34, _⟩ => ⟨S900000x1, .i32⟩
  | .hbm, ⟨35, _⟩ => ⟨S900000, .f32⟩
  | .hbm, ⟨36, _⟩ => ⟨S_, .i32⟩
  | .hbm, ⟨37, _⟩ => ⟨S900000, .i32⟩
  | .hbm, ⟨38, _⟩ => ⟨S900000, .i1⟩
  | .hbm, ⟨39, _⟩ => ⟨S_, .i32⟩
  | .hbm, ⟨40, _⟩ => ⟨S900000, .i32⟩
  | .hbm, ⟨41, _⟩ => ⟨S900000, .i32⟩
  | .hbm, ⟨42, _⟩ => ⟨S900000, .i32⟩
  | .hbm, ⟨43, _⟩ => ⟨S900000x1, .i32⟩
  | .hbm, ⟨44, _⟩ => ⟨S900000, .f32⟩
  | .hbm, ⟨45, _⟩ => ⟨S900000, .f32⟩
  | .hbm, ⟨46, _⟩ => ⟨S100000x256, .f32⟩
  | .hbm, ⟨47, _⟩ => ⟨S_, .i32⟩
  | .hbm, ⟨48, _⟩ => ⟨S900000, .i32⟩
  | .hbm, ⟨49, _⟩ => ⟨S900000, .i1⟩
  | .hbm, ⟨50, _⟩ => ⟨S_, .i32⟩
  | .hbm, ⟨51, _⟩ => ⟨S900000, .i32⟩
  | .hbm, ⟨52, _⟩ => ⟨S900000, .i32⟩
  | .hbm, ⟨53, _⟩ => ⟨S900000, .i32⟩
  | .hbm, ⟨54, _⟩ => ⟨S900000x1, .i32⟩
  | .hbm, ⟨55, _⟩ => ⟨S900000x256, .f32⟩
  | .hbm, ⟨56, _⟩ => ⟨S900000x1, .f32⟩
  | .hbm, ⟨57, _⟩ => ⟨S900000x256, .f32⟩
  | .hbm, ⟨58, _⟩ => ⟨S900000x256, .f32⟩
  | .hbm, ⟨59, _⟩ => ⟨S_, .f32⟩
  | .hbm, ⟨60, _⟩ => ⟨S100000x256, .f32⟩
  | .hbm, ⟨61, _⟩ => ⟨S900000x1, .i32⟩
  | .hbm, ⟨62, _⟩ => ⟨S100000x256, .f32⟩
  | .hbm, ⟨63, _⟩ => ⟨S1x256, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S100000x256, .f32⟩
  | .hbm, ⟨68, _⟩ => ⟨S100000x256, .f32⟩
  | .hbm, ⟨69, _⟩ => ⟨S100000x256, .f32⟩
  | .hbm, ⟨70, _⟩ => ⟨S_, .i32⟩
  | .hbm, ⟨71, _⟩ => ⟨S900000, .i32⟩
  | .hbm, ⟨72, _⟩ => ⟨S900000, .i1⟩
  | .hbm, ⟨73, _⟩ => ⟨S_, .i32⟩
  | .hbm, ⟨74, _⟩ => ⟨S900000, .i32⟩
  | .hbm, ⟨75, _⟩ => ⟨S900000, .i32⟩
  | .hbm, ⟨76, _⟩ => ⟨S900000, .i32⟩
  | .hbm, ⟨77, _⟩ => ⟨S900000x1, .i32⟩
  | .hbm, ⟨78, _⟩ => ⟨S900000x256, .f32⟩
  | .hbm, ⟨79, _⟩ => ⟨S900000x1, .f32⟩
  | .hbm, ⟨80, _⟩ => ⟨S900000x256, .f32⟩
  | .hbm, ⟨81, _⟩ => ⟨S900000x256, .f32⟩
  | .hbm, ⟨82, _⟩ => ⟨S_, .f32⟩
  | .hbm, ⟨83, _⟩ => ⟨S100000x256, .f32⟩
  | .hbm, ⟨84, _⟩ => ⟨S900000x1, .i32⟩
  | .hbm, ⟨85, _⟩ => ⟨S100000x256, .f32⟩
  | .hbm, ⟨86, _⟩ => ⟨S1x256, .f32⟩
  | .hbm, ⟨87, _⟩ => ⟨S100000x256, .f32⟩
  | .hbm, ⟨88, _⟩ => ⟨S100000x256, .f32⟩
  | .local _ .vmem, ⟨0, _⟩ => ⟨S4000x128, .f32⟩
  | .local _ .vmem, ⟨1, _⟩ => ⟨S4000x128, .f32⟩
  | .local _ .vmem, ⟨2, _⟩ => ⟨S128x256, .f32⟩
  | .local _ .vmem, ⟨3, _⟩ => ⟨S4000x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S256x256, .f32⟩
  | .local _ .vmem, ⟨8, _⟩ => ⟨S4000x256, .f32⟩
  | .local _ .vmem, ⟨9, _⟩ => ⟨S4000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S4000x256_S4000x256_0_0 : ∀ a, (![0, 0] : Fin 2 → Nat) a + S4000x256.size a ≤ S4000x256.size a
  h_S4000x256 : 0 < S4000x256.numel
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S4000x128_S128x256_S4000x256_1_0_0_1_n_n_wf : DotDims.WF S4000x128 S128x256 S4000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S100000x256.size a
  hwx0_2 : ∀ i : grid0.Coords, EltTy.bits .f32 = 32 ∨ (Rect.block (s := S100000x256) S4000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S100000x256.size a
  hwx1_2 : ∀ i : grid1.Coords, EltTy.bits .f32 = 32 ∨ (Rect.block (s := S100000x256) S4000x256.size (cc1_transform_2 i) (hinb1_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x256 : Shape := ⟨2, ![100000, 256]⟩
abbrev S900000x256 : Shape := ⟨2, ![900000, 256]⟩
abbrev S1x256 : Shape := ⟨2, ![1, 256]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S900000, .i32⟩
  | .hbm, ⟨29, _⟩ => ⟨S900000, .i1⟩
  | .hbm, ⟨30, _⟩ => ⟨S_, .i32⟩
  | .hbm, ⟨31, _⟩ => ⟨S900000, .i32⟩
  | .hbm, ⟨32, _⟩ => ⟨S900000, .i32⟩
  | .hbm, ⟨33, _⟩ => ⟨S900000, .i32⟩
  | .hbm, ⟨34, _⟩ => ⟨S900000x1, .i32⟩
  | .hbm, ⟨35, _⟩ => ⟨S900000, .f32⟩
  | .hbm, ⟨36, _⟩ => ⟨S_, .i32⟩
  | .hbm, ⟨37, _⟩ => ⟨S900000, .i32⟩
  | .hbm, ⟨38, _⟩ => ⟨S900000, .i1⟩
  | .hbm, ⟨39, _⟩ => ⟨S_, .i32⟩
  | .hbm, ⟨40, _⟩ => ⟨S900000, .i32⟩
  | .hbm, ⟨41, _⟩ => ⟨S900000, .i32⟩
  | .hbm, ⟨42, _⟩ => ⟨S900000, .i32⟩
  | .hbm, ⟨43, _⟩ => ⟨S900000x1, .i32⟩
  | .hbm, ⟨44, _⟩ => ⟨S900000, .f32⟩
  | .hbm, ⟨45, _⟩ => ⟨S900000, .f32⟩
  | .hbm, ⟨46, _⟩ => ⟨S100000x256, .f32⟩
  | .hbm, ⟨47, _⟩ => ⟨S_, .i32⟩
  | .hbm, ⟨48, _⟩ => ⟨S900000, .i32⟩
  | .hbm, ⟨49, _⟩ => ⟨S900000, .i1⟩
  | .hbm, ⟨50, _⟩ => ⟨S_, .i32⟩
  | .hbm, ⟨51, _⟩ => ⟨S900000, .i32⟩
  | .hbm, ⟨52, _⟩ => ⟨S900000, .i32⟩
  | .hbm, ⟨53, _⟩ => ⟨S900000, .i32⟩
  | .hbm, ⟨54, _⟩ => ⟨S900000x1, .i32⟩
  | .hbm, ⟨55, _⟩ => ⟨S900000x256, .f32⟩
  | .hbm, ⟨56, _⟩ => ⟨S900000x1, .f32⟩
  | .hbm, ⟨57, _⟩ => ⟨S900000x256, .f32⟩
  | .hbm, ⟨58, _⟩ => ⟨S900000x256, .f32⟩
  | .hbm, ⟨59, _⟩ => ⟨S_, .f32⟩
  | .hbm, ⟨60, _⟩ => ⟨S100000x256, .f32⟩
  | .hbm, ⟨61, _⟩ => ⟨S900000x1, .i32⟩
  | .hbm, ⟨62, _⟩ => ⟨S100000x256, .f32⟩
  | .hbm, ⟨63, _⟩ => ⟨S1x256, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S100000x256, .f32⟩
  | .hbm, ⟨68, _⟩ => ⟨S100000x256, .f32⟩
  | .hbm, ⟨69, _⟩ => ⟨S100000x256, .f32⟩
  | .hbm, ⟨70, _⟩ => ⟨S_, .i32⟩
  | .hbm, ⟨71, _⟩ => ⟨S900000, .i32⟩
  | .hbm, ⟨72, _⟩ => ⟨S900000, .i1⟩
  | .hbm, ⟨73, _⟩ => ⟨S_, .i32⟩
  | .hbm, ⟨74, _⟩ => ⟨S900000, .i32⟩
  | .hbm, ⟨75, _⟩ => ⟨S900000, .i32⟩
  | .hbm, ⟨76, _⟩ => ⟨S900000, .i32⟩
  | .hbm, ⟨77, _⟩ => ⟨S900000x1, .i32⟩
  | .hbm, ⟨78, _⟩ => ⟨S900000x256, .f32⟩
  | .hbm, ⟨79, _⟩ => ⟨S900000x1, .f32⟩
  | .hbm, ⟨80, _⟩ => ⟨S900000x256, .f32⟩
  | .hbm, ⟨81, _⟩ => ⟨S900000x256, .f32⟩
  | .hbm, ⟨82, _⟩ => ⟨S_, .f32⟩
  | .hbm, ⟨83, _⟩ => ⟨S100000x256, .f32⟩
  | .hbm, ⟨84, _⟩ => ⟨S900000x1, .i32⟩
  | .hbm, ⟨85, _⟩ => ⟨S100000x256, .f32⟩
  | .hbm, ⟨86, _⟩ => ⟨S1x256, .f32⟩
  | .hbm, ⟨87, _⟩ => ⟨S100000x256, .f32⟩
  | .hbm, ⟨88, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x256_S100000x256_1_0_0_1_n_n_wf : DotDims.WF S100000x128 S128x256 S100000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x256_S256x256_S100000x256_1_0_0_1_n_n_wf : DotDims.WF S100000x256 S256x256 S100000x256 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.Glue.lean ====
import proofs.«162196_j74191265071481_1_alg».proof.Proof.Gen.ReferenceIdeal

/-!
# The graph convolution around the two linear transforms, named once

Both programs run the same host operations around the two matrix products: the edge list gets one self loop per node
(`srcIdx`, `dstIdx`), a node's degree is the number of edges that end in it (`degree`), an edge's weight is
`d(src)^(-1/2) · d(dst)^(-1/2)` with `0` for a node of degree `0` (`edgeNorm`), and a layer gathers the transformed features
at each edge's source, scales them by the edge's weight, sums them at the edge's destination and adds the bias
(`aggregate`); a rectifier (`relu`) sits between the two layers. The functions below are those operations over the
reference's shapes, for any float family; neither program's proof ever opens them.
-/

noncomputable section

namespace Cert.Bridge

open Cert.ReferenceIdeal Cert.ReferenceIdeal.Gen Idealize.ShloMosaic Idealize.ShloMosaic.TcCoe

variable (F : FTy → Type) [FloatOps F]

/-- Each edge's source node, then every node once (its self loop). -/
def srcIdx (ei : (⟨S2x800000, .i32⟩ : BufTy).Contents (Elt F)) : (⟨S900000, .i32⟩ : BufTy).Contents (Elt F) :=
  concatenate S900000 0 [⟨S800000, (shapeCast _ (extractStridedSlice S1x800000 ![0, 0] ei slices_S2x800000_S1x800000_0_0) shapeCasts_S1x800000_S800000)⟩, ⟨S100000, (iotaInDim S100000 32 0)⟩] concatenates_S800000_S100000_S900000_d0

/-- Each edge's destination node, then every node once. -/
def dstIdx (ei : (⟨S2x800000, .i32⟩ : BufTy).Contents (Elt F)) : (⟨S900000, .i32⟩ : BufTy).Contents (Elt F) :=
  concatenate S900000 0 [⟨S800000, (shapeCast _ (extractStridedSlice S1x800000 ![1, 0] ei slices_S2x800000_S1x800000_1_0) shapeCasts_S1x800000_S800000)⟩, ⟨S100000, (iotaInDim S100000 32 0)⟩] concatenates_S800000_S100000_S900000_d0

/-- jnp's indexing of a negative position: the node count is added to it. -/
def wrapIdx (ix : (⟨S900000, .i32⟩ : BufTy).Contents (Elt F)) : (⟨S900000, .i32⟩ : BufTy).Contents (Elt F) :=
  select (cmpi .slt ix (broadcastInDim S900000 ![] bcast_S_S900000 (constantI S_ 32 0#32))) (addi ix (broadcastInDim S900000 ![] bcast_S_S900000 (constantI S_ 32 100000#32))) ix

/-- A node's degree: one for every edge (self loops included) that ends in it. -/
def degree (ei : (⟨S2x800000, .i32⟩ : BufTy).Contents (Elt F)) : (⟨S100000, .f32⟩ : BufTy).Contents (Elt F) :=
  Host.scatterAdd scatter_S100000_S900000x1_S900000_n_0_0_1 (broadcastInDim S100000 ![] bcast_S_S100000 (constant S_ .f32 0x00000000#32)) (broadcastInDim S900000x1 ![0] bcast_S900000_S900000x1_0 (dstIdx F ei)) (broadcastInDim S900000 ![] bcast_S_S900000 (constant S_ .f32 0x3F800000#32))

/-- Which nodes have a positive degree. -/
def degPositive (ei : (⟨S2x800000, .i32⟩ : BufTy).Contents (Elt F)) : (⟨S100000, .i1⟩ : BufTy).Contents (Elt F) :=
  cmpf (F := F) .ogt (degree F ei) (broadcastInDim S100000 ![] bcast_S_S100000 (constant S_ .f32 0x00000000#32))

/-- `degree^(-1/2)` as the host computes it at every node. -/
def degRsqrt (ei : (⟨S2x800000, .i32⟩ : BufTy).Contents (Elt F)) : (⟨S100000, .f32⟩ : BufTy).Contents (Elt F) :=
  Host.rsqrt (degree F ei)

/-- `degree^(-1/2)`, and `0` where the degree is not positive. -/
def invSqrtDeg (ei : (⟨S2x800000, .i32⟩ : BufTy).Contents (Elt F)) : (⟨S100000, .f32⟩ : BufTy).Contents (Elt F) :=
  select (degPositive F ei) (degRsqrt F ei) (broadcastInDim S100000 ![] bcast_S_S100000 (id (constant S_ .f32 0x00000000#32)))

/-- An edge's weight: the product of its two ends' `degree^(-1/2)`. -/
def edgeNorm (ei : (⟨S2x800000, .i32⟩ : BufTy).Contents (Elt F)) : (⟨S900000, .f32⟩ : BufTy).Contents (Elt F) :=
  mulf (Host.gather gather_S100000_S900000x1_S900000_n_0_n_n_0_1_1 (invSqrtDeg F ei) (broadcastInDim S900000x1 ![0] bcast_S900000_S900000x1_0 (wrapIdx F (srcIdx F ei)))) (Host.gather gather_S100000_S900000x1_S900000_n_0_n_n_0_1_1 (invSqrtDeg F ei) (broadcastInDim S900000x1 ![0] bcast_S900000_S900000x1_0 (wrapIdx F (dstIdx F ei))))

/-- One layer after its linear transform `h`: gather at the sources, scale by the edge weights, sum at the destinations,
    add the bias. -/
def aggregate (ei : (⟨S2x800000, .i32⟩ : BufTy).Contents (Elt F)) (h : (⟨S100000x256, .f32⟩ : BufTy).Contents (Elt F))
    (b : (⟨S256, .f32⟩ : BufTy).Contents (Elt F)) : (⟨S100000x256, .f32⟩ : BufTy).Contents (Elt F) :=
  addf (Host.scatterAdd scatter_S100000x256_S900000x1_S900000x256_1_0_0_1 (broadcastInDim S100000x256 ![] bcast_S_S100000x256 (constant S_ .f32 0x00000000#32)) (broadcastInDim S900000x1 ![0] bcast_S900000_S900000x1_0 (dstIdx F ei)) (mulf (Host.gather gather_S100000x256_S900000x1_S900000x256_1_0_n_n_0_1_1256 h (broadcastInDim S900000x1 ![0] bcast_S900000_S900000x1_0 (wrapIdx F (srcIdx F ei)))) (broadcastInDim S900000x256 ![0, 1] bcast_S900000x1_S900000x256_0_1 (broadcastInDim S900000x1 ![0] bcast_S900000_S900000x1_0 (edgeNorm F ei))))) (broadcastInDim S100000x256 ![0, 1] bcast_S1x256_S100000x256_0_1 (broadcastInDim S1x256 ![1] bcast_S256_S1x256_1 b))

/-- The rectifier between the layers. -/
def relu (h : (⟨S100000x256, .f32⟩ : BufTy).Contents (Elt F)) : (⟨S100000x256, .f32⟩ : BufTy).Contents (Elt F) :=
  maximumf h (broadcastInDim S100000x256 ![] bcast_S_S100000x256 (constant S_ .f32 0x00000000#32))

/-- The reference's two linear transforms. -/
abbrev linear1 (x : (⟨S100000x128, .f32⟩ : BufTy).Contents (Elt F)) (w : (⟨S128x256, .f32⟩ : BufTy).Contents (Elt F)) :
    (⟨S100000x256, .f32⟩ : BufTy).Contents (Elt F) :=
  Host.dotGeneral dot_S100000x128_S128x256_S100000x256_1_0_0_1_n_n none x w
abbrev linear2 (h : (⟨S100000x256, .f32⟩ : BufTy).Contents (Elt F)) (w : (⟨S256x256, .f32⟩ : BufTy).Contents (Elt F)) :
    (⟨S100000x256, .f32⟩ : BufTy).Contents (Elt F) :=
  Host.dotGeneral dot_S100000x256_S256x256_S100000x256_1_0_0_1_n_n none h w

/-- The whole forward pass, as a function of the six arguments. -/
def forwardValue (x : (⟨S100000x128, .f32⟩ : BufTy).Contents (Elt F)) (ei : (⟨S2x800000, .i32⟩ : BufTy).Contents (Elt F))
    (w1 : (⟨S128x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) :
    (⟨S100000x256, .f32⟩ : BufTy).Contents (Elt F) :=
  aggregate F ei (linear2 F (relu F (aggregate F ei (linear1 F x w1) b1)) w2) b2

end Cert.Bridge

end
-- ==== Proof.RefValue.lean ====
import proofs.«162196_j74191265071481_1_alg».proof.Proof.RefRunP
import proofs.«162196_j74191265071481_1_alg».proof.Proof.Glue

/-!
# The reference's result is the forward pass of its arguments

The reference's run states its result as one term in which every shared value (the edge ends, the degrees, the edge
weights) is written out at each use. Folding those repeats back into their names gives the same forward pass the
kernel's boundaries were read against.
-/

set_option maxRecDepth 16384

noncomputable section

namespace Cert.Bridge

open Cert.ReferenceIdeal Idealize.ShloMosaic Idealize.ShloMosaic.TcCoe Idealize.SL.Sem

variable {F : FTy → Type} [FloatOps F]

theorem ref_value (m : (ℓ : Loc nD τ sig) → Buf (Elt F) ℓ) (c : Dev nD) :
    Cert.ReferenceIdeal.RunP.res_main_v64 m c
      = forwardValue F (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v64 forwardValue aggregate relu edgeNorm invSqrtDeg degPositive degRsqrt degree wrapIdx srcIdx dstIdx
  rfl

end Cert.Bridge

end
-- ==== Proof.KernelGlue.lean ====
import proofs.«162196_j74191265071481_1_alg».proof.Proof.Gen.KernelIdeal.Frame
import proofs.«162196_j74191265071481_1_alg».proof.Proof.Glue
import Idealize.ShloMosaic.Lib.StableHlo.Run

/-!
# The kernel's buffers at the boundaries of its two regions

The kernel's @main is host operations, a pallas_call, host operations, a pallas_call, host operations. Reading the buffer
contents at each boundary: before the first call the edge list's two ends (with self loops) and the edge weights have
been computed from the edge-index argument alone; no later operation writes them, so every later stretch finds them
unchanged. The stretch between the calls turns the first call's output into `relu (aggregate …)`, the last stretch turns
the second call's output into `aggregate …`, the result. What the two calls leave in their output arrays is taken here
as a hypothesis (`h₁`, `h₂`).
-/

set_option maxRecDepth 16384

noncomputable section

namespace Cert.Bridge.KernelSide

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-! ## Before the first call -/

theorem src_at_W3 : W3 m ρ c (Proc.devRef .tc main_v3) = Cert.Bridge.srcIdx F (m ((c : Thread nD τ).loc main_arg1)) := by
  show StableHlo.after hostOps0_2 (StableHlo.after hostOps0_1 (StableHlo.after hostOps0 (W0 m ρ c))) (Proc.devRef .tc main_v3) = _
  after_results <;> rfl

theorem dst_at_W3 : W3 m ρ c (Proc.devRef .tc main_v6) = Cert.Bridge.dstIdx F (m ((c : Thread nD τ).loc main_arg1)) := by
  show StableHlo.after hostOps0_2 (StableHlo.after hostOps0_1 (StableHlo.after hostOps0 (W0 m ρ c))) (Proc.devRef .tc main_v6) = _
  after_results <;> rfl

/-! The edge weights, stage by stage: the first eighteen operations leave the degree's positivity test and its reciprocal
    square root; the outlined `where` selects between that and zero; the last nineteen gather it at both ends of every edge
    and multiply. Each stage is read from the one before through a variable standing for the earlier buffer contents. -/

theorem degPositive_at_W1 : W1 m ρ c (Proc.devRef .tc main_v12) = Cert.Bridge.degPositive F (m ((c : Thread nD τ).loc main_arg1)) := by
  show StableHlo.after hostOps0 (W0 m ρ c) (Proc.devRef .tc main_v12) = _
  after_results <;> rfl
theorem degRsqrt_at_W1 : W1 m ρ c (Proc.devRef .tc main_v13) = Cert.Bridge.degRsqrt F (m ((c : Thread nD τ).loc main_arg1)) := by
  show StableHlo.after hostOps0 (W0 m ρ c) (Proc.devRef .tc main_v13) = _
  after_results <;> rfl
theorem zero_at_W1 : W1 m ρ c (Proc.devRef .tc main_cst_2) = constant (F := F) Cert.ReferenceIdeal.S_ .f32 0x00000000#32 := by
  show StableHlo.after hostOps0 (W0 m ρ c) (Proc.devRef .tc main_cst_2) = _
  after_results <;> rfl

theorem invSqrtDeg_at_W2 : W2 m ρ c (Proc.devRef .tc main_v14) = Cert.Bridge.invSqrtDeg F (m ((c : Thread nD τ).loc main_arg1)) := by
  have h12 := degPositive_at_W1 m ρ c
  have h13 := degRsqrt_at_W1 m ρ c
  have h0 := zero_at_W1 m ρ c
  show StableHlo.after hostOps0_1 (W1 m ρ c) (Proc.devRef .tc main_v14) = _
  generalize W1 m ρ c = V1 at h12 h13 h0 ⊢
  after_results_simp
  rw [h12, h13, h0]
  rfl
theorem src_at_W2 : W2 m ρ c (Proc.devRef .tc main_v3) = Cert.Bridge.srcIdx F (m ((c : Thread nD τ).loc main_arg1)) := by
  show StableHlo.after hostOps0_1 (StableHlo.after hostOps0 (W0 m ρ c)) (Proc.devRef .tc main_v3) = _
  after_results <;> rfl
theorem dst_at_W2 : W2 m ρ c (Proc.devRef .tc main_v6) = Cert.Bridge.dstIdx F (m ((c : Thread nD τ).loc main_arg1)) := by
  show StableHlo.after hostOps0_1 (StableHlo.after hostOps0 (W0 m ρ c)) (Proc.devRef .tc main_v6) = _
  after_results <;> rfl

theorem norm_at_W3 : W3 m ρ c (Proc.devRef .tc main_v29) = Cert.Bridge.edgeNorm F (m ((c : Thread nD τ).loc main_arg1)) := by
  have h3 := src_at_W2 m ρ c
  have h6 := dst_at_W2 m ρ c
  have h14 := invSqrtDeg_at_W2 m ρ c
  show StableHlo.after hostOps0_2 (W2 m ρ c) (Proc.devRef .tc main_v29) = _
  generalize W2 m ρ c = V2 at h3 h6 h14 ⊢
  after_results_simp
  rw [h3, h6, h14]
  rfl

/-- The host operations before the first call write no argument. -/
theorem arg0_at_W3 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results <;> rfl
theorem arg2_at_W3 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results <;> rfl
theorem arg3_at_W3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl
theorem arg4_at_W3 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results <;> rfl
theorem arg5_at_W3 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results <;> rfl

/-! ## After the first call: only its output array has changed -/

theorem src_at_W4 : W4 m ρ c (Proc.devRef .tc main_v3) = Cert.Bridge.srcIdx F (m ((c : Thread nD τ).loc main_arg1)) :=
  (W4_of_ne m ρ c main_v3 (by decide)).trans (src_at_W3 m ρ c)
theorem dst_at_W4 : W4 m ρ c (Proc.devRef .tc main_v6) = Cert.Bridge.dstIdx F (m ((c : Thread nD τ).loc main_arg1)) :=
  (W4_of_ne m ρ c main_v6 (by decide)).trans (dst_at_W3 m ρ c)
theorem norm_at_W4 : W4 m ρ c (Proc.devRef .tc main_v29) = Cert.Bridge.edgeNorm F (m ((c : Thread nD τ).loc main_arg1)) :=
  (W4_of_ne m ρ c main_v29 (by decide)).trans (norm_at_W3 m ρ c)
theorem arg3_at_W4 : W4 m ρ c (Proc.devRef .tc main_arg3) = m ((c : Thread nD τ).loc main_arg3) :=
  (W4_of_ne m ρ c main_arg3 (by decide)).trans (arg3_at_W3 m ρ c)
theorem arg4_at_W4 : W4 m ρ c (Proc.devRef .tc main_arg4) = m ((c : Thread nD τ).loc main_arg4) :=
  (W4_of_ne m ρ c main_arg4 (by decide)).trans (arg4_at_W3 m ρ c)
theorem arg5_at_W4 : W4 m ρ c (Proc.devRef .tc main_arg5) = m ((c : Thread nD τ).loc main_arg5) :=
  (W4_of_ne m ρ c main_arg5 (by decide)).trans (arg5_at_W3 m ρ c)

/-! ## Between the calls -/

/-- The second call's left operand: the first layer's aggregate of the first call's output, rectified. -/
theorem hidden_at_W6 : W6 m ρ c (Proc.devRef .tc main_v47)
    = Cert.Bridge.relu F (Cert.Bridge.aggregate F (m ((c : Thread nD τ).loc main_arg1)) (W4 m ρ c (Proc.devRef .tc main_v30))
        (m ((c : Thread nD τ).loc main_arg3))) := by
  show StableHlo.after hostOps1_1 (StableHlo.after hostOps1 (W4 m ρ c)) (Proc.devRef .tc main_v47) = _
  after_results_simp
  rw [src_at_W4, dst_at_W4, norm_at_W4, arg3_at_W4]
  rfl

theorem src_at_W6 : W6 m ρ c (Proc.devRef .tc main_v3) = Cert.Bridge.srcIdx F (m ((c : Thread nD τ).loc main_arg1)) := by
  refine Eq.trans ?_ (src_at_W4 m ρ c)
  show StableHlo.after hostOps1_1 (StableHlo.after hostOps1 (W4 m ρ c)) (Proc.devRef .tc main_v3) = _
  after_results <;> rfl
theorem dst_at_W6 : W6 m ρ c (Proc.devRef .tc main_v6) = Cert.Bridge.dstIdx F (m ((c : Thread nD τ).loc main_arg1)) := by
  refine Eq.trans ?_ (dst_at_W4 m ρ c)
  show StableHlo.after hostOps1_1 (StableHlo.after hostOps1 (W4 m ρ c)) (Proc.devRef .tc main_v6) = _
  after_results <;> rfl
theorem norm_at_W6 : W6 m ρ c (Proc.devRef .tc main_v29) = Cert.Bridge.edgeNorm F (m ((c : Thread nD τ).loc main_arg1)) := by
  refine Eq.trans ?_ (norm_at_W4 m ρ c)
  show StableHlo.after hostOps1_1 (StableHlo.after hostOps1 (W4 m ρ c)) (Proc.devRef .tc main_v29) = _
  after_results <;> rfl
theorem arg4_at_W6 : W6 m ρ c (Proc.devRef .tc main_arg4) = m ((c : Thread nD τ).loc main_arg4) := by
  refine Eq.trans ?_ (arg4_at_W4 m ρ c)
  show StableHlo.after hostOps1_1 (StableHlo.after hostOps1 (W4 m ρ c)) (Proc.devRef .tc main_arg4) = _
  after_results <;> rfl
theorem arg5_at_W6 : W6 m ρ c (Proc.devRef .tc main_arg5) = m ((c : Thread nD τ).loc main_arg5) := by
  refine Eq.trans ?_ (arg5_at_W4 m ρ c)
  show StableHlo.after hostOps1_1 (StableHlo.after hostOps1 (W4 m ρ c)) (Proc.devRef .tc main_arg5) = _
  after_results <;> rfl

/-! ## After the second call, and the result -/

theorem src_at_W7 : W7 m ρ c (Proc.devRef .tc main_v3) = Cert.Bridge.srcIdx F (m ((c : Thread nD τ).loc main_arg1)) :=
  (W7_of_ne m ρ c main_v3 (by decide)).trans (src_at_W6 m ρ c)
theorem dst_at_W7 : W7 m ρ c (Proc.devRef .tc main_v6) = Cert.Bridge.dstIdx F (m ((c : Thread nD τ).loc main_arg1)) :=
  (W7_of_ne m ρ c main_v6 (by decide)).trans (dst_at_W6 m ρ c)
theorem norm_at_W7 : W7 m ρ c (Proc.devRef .tc main_v29) = Cert.Bridge.edgeNorm F (m ((c : Thread nD τ).loc main_arg1)) :=
  (W7_of_ne m ρ c main_v29 (by decide)).trans (norm_at_W6 m ρ c)
theorem arg5_at_W7 : W7 m ρ c (Proc.devRef .tc main_arg5) = m ((c : Thread nD τ).loc main_arg5) :=
  (W7_of_ne m ρ c main_arg5 (by decide)).trans (arg5_at_W6 m ρ c)

/-- The result buffer: the second layer's aggregate of the second call's output. -/
theorem result_at_W8 : W8 m ρ c (Proc.devRef .tc main_v64)
    = Cert.Bridge.aggregate F (m ((c : Thread nD τ).loc main_arg1)) (W7 m ρ c (Proc.devRef .tc main_v48))
        (m ((c : Thread nD τ).loc main_arg5)) := by
  show StableHlo.after hostOps2 (W7 m ρ c) (Proc.devRef .tc main_v64) = _
  after_results_simp
  rw [src_at_W7, dst_at_W7, norm_at_W7, arg5_at_W7]
  rfl

/-- The whole kernel value, given what the two calls leave in their output arrays: the forward pass of the arguments. -/
theorem result_eq
    (h₁ : W4 m ρ c (Proc.devRef .tc main_v30)
      = Cert.Bridge.linear1 F (W3 m ρ c (Proc.devRef .tc main_arg0)) (W3 m ρ c (Proc.devRef .tc main_arg2)))
    (h₂ : W7 m ρ c (Proc.devRef .tc main_v48)
      = Cert.Bridge.linear2 F (W6 m ρ c (Proc.devRef .tc main_v47)) (W6 m ρ c (Proc.devRef .tc main_arg4))) :
    W8 m ρ c (Proc.devRef .tc main_v64)
      = Cert.Bridge.forwardValue F (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [result_at_W8, h₂, hidden_at_W6, h₁, arg0_at_W3, arg2_at_W3, arg4_at_W6]
  rfl

end Cert.Bridge.KernelSide

end
-- ==== Proof.LibDotPlain.lean ====
import Idealize.ShloMosaic.Lib.ValueIdx
import Idealize.ShloMosaic.PureOps.Ideal.Laws

/-!
# A plain matrix product read at an index

For a dot whose dimension numbers contract the left operand's columns against the right operand's rows and keep
nothing else (`[1] × [0]`, free axes `[0]` and `[1]`, no batch axis), over rank-2 shapes `[M, K] × [K, N] → [M, N]`,
the element at `(j₀, j₁)` of the product is `∑ k, l (j₀, k) * r (k, j₁)` over the extended reals — whether the product is
a kernel's `tpu.matmul` into a zero accumulator or the host's `dot_general`. The lemmas take the record's six lists
as hypotheses (each is `rfl` for a printed record), so they serve any tile size: a kernel that computes the product
one row block at a time and a reference that computes it whole have the same sum at every index.
-/

noncomputable section

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- An index read at two spellings of one coordinate. -/
private theorem val_congr {s : Shape} (j : s.Idx) (p q : Nat) (hp : p < s.rank) (hq : q < s.rank) (h : p = q) :
    (j ⟨p, hp⟩).val = (j ⟨q, hq⟩).val := by subst h; rfl

/-- The left operand's row is the output's row. -/
theorem lhs_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The right operand's column is the output's column. -/
theorem rhs_col (hln : d.lhsNonContracting = [0]) (hrn : d.rhsNonContracting = [1]) (hlb : d.lhsBatch = []) (hrb : d.rhsBatch = [])
    (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- The contraction runs over one axis. -/
theorem contr_rank (hlc : d.lhsContracting = [1]) : d.contr.rank = 1 := by
  rw [d.rank_contr, hlc]; rfl

/-- Its extent is the operands' shared extent `K`. -/
theorem contr_size (hlc : d.lhsContracting = [1]) : d.contr.size ⟨0, by rw [contr_rank d hlc]; exact Nat.one_pos⟩ = K := by
  rw [d.size_contr 0 (by rw [hlc]; exact Nat.one_pos)]
  simp [hlc]

/-- The contraction sum, re-indexed by the contracted coordinate: the left operand is read along row `j 0`, the right
    one along column `j 1`. -/
theorem sum_rows_cols (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  have hr := contr_rank d hlc
  have hs := contr_size d hlc
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact lhs_row d hln hlb _ _
    | ⟨1, _⟩ => exact (d.lhsIdx_val_of_single hlc _ _).trans hk)
  have er : d.rhsIdx j ((contrEquiv1 d K hr hs).symm k) = ix2 k (j 1) := funext fun a => Fin.ext (by
    match a with
    | ⟨0, _⟩ => exact (d.rhsIdx_val_of_single hrc _ _).trans hk
    | ⟨1, _⟩ => exact rhs_col d hln hrn hlb hrb _ _)
  exact congrArg₂ (fun a b => l a * r b) el er

/-- A kernel's `tpu.matmul` into the zero splat, at the ideal values, read at an index. -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_rows_cols d hlc hrc hln hrn hlb hrb l r j)

/-- The host's `dot_general`, at the ideal values, read at an index: the same sum. -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_rows_cols d hlc hrc hln hrn hlb hrb l r j)

end Idealize.ShloMosaic.DotPlain

end
-- ==== Proof.DotRecords.lean ====
import proofs.«162196_j74191265071481_1_alg».proof.Proof.Gen.KernelIdeal.Skeleton
import proofs.«162196_j74191265071481_1_alg».proof.Proof.Gen.ReferenceIdeal
import proofs.«162196_j74191265071481_1_alg».proof.Proof.LibDotPlain
import Idealize.ShloMosaic.Lib.Pipeline.Value

/-!
# The two linear layers, tile and whole, at an index

Each GCN layer's linear transform is computed by the kernel 4000 rows at a time — the row block and the weight matrix
are cast to bf16 (the identity over the extended reals) and multiplied into a zero accumulator — and by the reference as
one product of the whole arrays. Read at an index both are the sum over the shared axis of row entry times column entry.
-/

noncomputable section

namespace Cert.Bridge

open Idealize.ShloMosaic Idealize.ShloMosaic.ValueIdx

/-- Layer 1, one row block: what the kernel body stores at `(p, q)` of its 4000 × 256 output block. -/
theorem tile1_apply (a : Vec Ideal Cert.KernelIdeal.S4000x128 .f32) (w : Vec Ideal Cert.KernelIdeal.S128x256 .f32)
    (j : Cert.KernelIdeal.S4000x256.Idx) :
    Cert.KernelIdeal.Gen.k0_pay1 (F := Ideal) a w j = ∑ k : Fin 128, a (ix2 (j 0) k) * w (ix2 k (j 1)) :=
  DotPlain.matmul_zero_apply Cert.KernelIdeal.dot_S4000x128_S128x256_S4000x256_1_0_0_1_n_n none rfl rfl rfl rfl rfl rfl a w j

/-- Layer 2, one row block. The body's shape cast is between equal shapes: the identity. -/
theorem tile2_apply (a : Vec Ideal Cert.KernelIdeal.S4000x256 .f32) (w : Vec Ideal Cert.KernelIdeal.S256x256 .f32)
    (j : Cert.KernelIdeal.S4000x256.Idx) :
    Cert.KernelIdeal.Gen.k1_pay1 (F := Ideal) a w j = ∑ k : Fin 256, a (ix2 (j 0) k) * w (ix2 k (j 1)) := by
  unfold Cert.KernelIdeal.Gen.k1_pay1
  rw [shapeCast_self]
  exact DotPlain.matmul_zero_apply Cert.KernelIdeal.dot_S4000x256_S256x256_S4000x256_1_0_0_1_n_n none rfl rfl rfl rfl rfl rfl a w j

/-- Layer 1, whole: the reference's product `x · W₁` at `(i₀, i₁)`. -/
theorem whole1_apply (x : FVec Ideal Cert.ReferenceIdeal.S100000x128 .f32) (w : FVec Ideal Cert.ReferenceIdeal.S128x256 .f32)
    (i : Cert.ReferenceIdeal.S100000x256.Idx) :
    Host.dotGeneral (F := Ideal) Cert.ReferenceIdeal.dot_S100000x128_S128x256_S100000x256_1_0_0_1_n_n none x w i
      = ∑ k : Fin 128, x (ix2 (i 0) k) * w (ix2 k (i 1)) :=
  DotPlain.dotGeneral_apply Cert.ReferenceIdeal.dot_S100000x128_S128x256_S100000x256_1_0_0_1_n_n none _ rfl rfl rfl rfl rfl rfl x w i

/-- Layer 2, whole: the reference's product `h · W₂` at `(i₀, i₁)`. -/
theorem whole2_apply (x : FVec Ideal Cert.ReferenceIdeal.S100000x256 .f32) (w : FVec Ideal Cert.ReferenceIdeal.S256x256 .f32)
    (i : Cert.ReferenceIdeal.S100000x256.Idx) :
    Host.dotGeneral (F := Ideal) Cert.ReferenceIdeal.dot_S100000x256_S256x256_S100000x256_1_0_0_1_n_n none x w i
      = ∑ k : Fin 256, x (ix2 (i 0) k) * w (ix2 k (i 1)) :=
  DotPlain.dotGeneral_apply Cert.ReferenceIdeal.dot_S100000x256_S256x256_S100000x256_1_0_0_1_n_n none _ rfl rfl rfl rfl rfl rfl x w i

end Cert.Bridge

end
-- ==== Proof.Layer1.lean ====
import proofs.«162196_j74191265071481_1_alg».proof.Proof.Gen.KernelIdeal.Frame
import proofs.«162196_j74191265071481_1_alg».proof.Proof.DotRecords
import Idealize.ShloMosaic.Lib.Pipeline.Value

/-!
# Layer 1's linear transform: the row blocks make the whole product

The first pallas_call walks the 100000 rows of its left operand 4000 at a time (25 grid points); at point `t` it reads rows
`4000 t … 4000 t + 3999` and the whole 128 × 256 weight matrix and writes rows `4000 t … 4000 t + 3999` of its output.
Entry `(p, q)` of that block is `∑ k, a (4000 t + p, k) * w (k, q)`, which is entry `(4000 t + p, q)` of the product of the
whole arrays; every output row lies in exactly the block of `t = row / 4000`. So after the region the output array is
the reference's `dot_general` of the two arrays the region was entered with.
-/

set_option maxRecDepth 16384

noncomputable section

namespace Cert.Bridge.Layer1

open Cert.KernelIdeal Cert.KernelIdeal.Gen
open Idealize.ShloMosaic Idealize.ShloMosaic.TcCoe Idealize.ShloMosaic.ValueIdx Idealize.SL.Sem

-- the array contents the region is entered with
variable (V : (c : Dev nD) → (b : Ref sig .tc) → Buf (Elt Ideal) ((c : Thread nD τ).loc b))

theorem zero_offsets : (![0, 0] : Fin 2 → Nat) = fun _ => 0 := funext fun a => by fin_cases a <;> rfl

/-- The product of the whole arrays, as the reference computes it. -/
abbrev whole (x : FVec Ideal S100000x128 .f32) (w : FVec Ideal S128x256 .f32) : FVec Ideal S100000x256 .f32 :=
  Host.dotGeneral (F := Ideal) Cert.ReferenceIdeal.dot_S100000x128_S128x256_S100000x256_1_0_0_1_n_n none x w

/-- The two operand arrays as the region finds them, at their literal types. -/
abbrev xarr (c : Dev nD) : FVec Ideal S100000x128 .f32 := V c main_arg0
abbrev warr (c : Dev nD) : FVec Ideal S128x256 .f32 := V c main_arg2

/-- The printed index maps over the grid: the left operand's block and the output's block are both row block `t`,
    and the weight matrix is one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays as the region finds them. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero zero_offsets]
  simp only [View.ld_unit_zero (S := S4000x128) zero_offsets, View.ld_unit_zero (S := S128x256) zero_offsets]
  obtain ⟨e0, e1, e2, e3, e4, e5⟩ := index_facts t
  funext j
  show k0_pay1 (F := Ideal) (iblk0 V c 0 t) (iblk0 V c 1 t) j
    = whole (V c main_arg0) (V c main_arg2) (((cfg0.win 2).blk t).view.emb j)
  refine (tile1_apply (iblk0 V c 0 t) (iblk0 V c 1 t) j).trans ?_
  refine Eq.trans ?_ (whole1_apply (V c main_arg0) (V c main_arg2) (((cfg0.win 2).blk t).view.emb j)).symm
  refine Finset.sum_congr rfl fun k _ => ?_
  -- the row block's entry (p, k) is the array's entry (4000 t + p, k); the weight block is the weight array
  have h0 : ((cfg0.win 0).blk t).view.emb (ix2 (j 0) k : S4000x128.Idx)
      = (ix2 ((((cfg0.win 2).blk t).view.emb j) 0) k : S100000x128.Idx) := by
    funext a; apply Fin.ext
    match a with
    | ⟨0, _⟩ =>
      show win0_0.index t (0 : Fin 2) * 4000 + 1 * (j 0).val = win0_2.index t (0 : Fin 2) * 4000 + 1 * (j 0).val
      omega
    | ⟨1, _⟩ =>
      show win0_0.index t (1 : Fin 2) * 128 + 1 * k.val = k.val
      omega
  have h1 : ((cfg0.win 1).blk t).view.emb (ix2 k (j 1) : S128x256.Idx)
      = (ix2 k ((((cfg0.win 2).blk t).view.emb j) 1) : S128x256.Idx) := by
    funext a; apply Fin.ext
    match a with
    | ⟨0, _⟩ =>
      show win0_1.index t (0 : Fin 2) * 128 + 1 * k.val = k.val
      omega
    | ⟨1, _⟩ =>
      show win0_1.index t (1 : Fin 2) * 256 + 1 * (j 1).val = win0_2.index t (1 : Fin 2) * 256 + 1 * (j 1).val
      omega
  show xarr V c (((cfg0.win 0).blk t).view.emb (ix2 (j 0) k : S4000x128.Idx))
      * warr V c (((cfg0.win 1).blk t).view.emb (ix2 k (j 1) : S128x256.Idx)) = _
  rw [h0, h1]

/-- An index of the output array is in point `t`'s block iff each coordinate is in the block's range on its axis. -/
theorem mem_blk (t : Fin cfg0.N) (i : S100000x256.Idx) :
    i ∈ ((cfg0.win 2).blk t).view.set ↔ ∀ a : Fin 2, win0_2.index t a * S4000x256.size a ≤ (i a).val
      ∧ (i a).val < win0_2.index t a * S4000x256.size a + S4000x256.size a := by
  show i ∈ ((View.whole main_v30).slice (win0_2.rect t)).set ↔ _
  rw [View.set_slice_whole, Rect.mem_set_unit]
  exact Iff.rfl

/-- Every output index is in the block of the point `row / 4000`, which writes back. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ : ∃ t : Fin cfg0.N, t.val = (i 0).val / 4000 :=
    ⟨⟨(i 0).val / 4000, by show (i 0).val / 4000 < 25; omega⟩, rfl⟩
  obtain ⟨e0, e1, e2, e3, e4, e5⟩ := index_facts t
  refine ⟨t, flush0_2 t, ?_⟩
  rw [mem_blk]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 256 ≤ (i 1).val ∧ (i 1).val < win0_2.index t (1 : Fin 2) * 256 + 256
    omega

/-- The output array after the region: the whole product of the arrays the region was entered with. -/
theorem final (c : Dev nD) : (dat0 V c).arrAt 2 cfg0.N = whole (V c main_arg0) (V c main_arg2) :=
  (dat0 V c).arrAt_eq_of_cover 2 _ (fun t _ => flushed_eq V c t) cover

end Cert.Bridge.Layer1

end
-- ==== Proof.Layer2.lean ====
import proofs.«162196_j74191265071481_1_alg».proof.Proof.Gen.KernelIdeal.Frame
import proofs.«162196_j74191265071481_1_alg».proof.Proof.DotRecords
import Idealize.ShloMosaic.Lib.Pipeline.Value

/-!
# Layer 2's linear transform: the row blocks make the whole product

The second pallas_call walks the 100000 rows of its left operand 4000 at a time (25 grid points); at point `t` it reads rows
`4000 t … 4000 t + 3999` and the whole 256 × 256 weight matrix and writes rows `4000 t … 4000 t + 3999` of its output.
Entry `(p, q)` of that block is `∑ k, a (4000 t + p, k) * w (k, q)`, which is entry `(4000 t + p, q)` of the product of the
whole arrays; every output row lies in exactly the block of `t = row / 4000`. So after the region the output array is
the reference's `dot_general` of the two arrays the region was entered with.
-/

set_option maxRecDepth 16384

noncomputable section

namespace Cert.Bridge.Layer2

open Cert.KernelIdeal Cert.KernelIdeal.Gen
open Idealize.ShloMosaic Idealize.ShloMosaic.TcCoe Idealize.ShloMosaic.ValueIdx Idealize.SL.Sem

-- the array contents the region is entered with
variable (V : (c : Dev nD) → (b : Ref sig .tc) → Buf (Elt Ideal) ((c : Thread nD τ).loc b))

theorem zero_offsets : (![0, 0] : Fin 2 → Nat) = fun _ => 0 := funext fun a => by fin_cases a <;> rfl

/-- The product of the whole arrays, as the reference computes it. -/
abbrev whole (x : FVec Ideal S100000x256 .f32) (w : FVec Ideal S256x256 .f32) : FVec Ideal S100000x256 .f32 :=
  Host.dotGeneral (F := Ideal) Cert.ReferenceIdeal.dot_S100000x256_S256x256_S100000x256_1_0_0_1_n_n none x w

/-- The two operand arrays as the region finds them, at their literal types. -/
abbrev xarr (c : Dev nD) : FVec Ideal S100000x256 .f32 := V c main_v47
abbrev warr (c : Dev nD) : FVec Ideal S256x256 .f32 := V c main_arg4

/-- The printed index maps over the grid: the left operand's block and the output's block are both row block `t`,
    and the weight matrix is one block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays as the region finds them. -/
theorem flushed_eq (c : Dev nD) (t : Fin cfg1.N) :
    (dat1 V c).flushed 2 t = ((cfg1.win 2).blk t).view.read (Elt Ideal) (whole (V c main_v47) (V c main_arg4)) := by
  show (cfg1.win 2).cut (grid1.coords t) ((dat1 V c).after 2 t) = _
  rw [after1_2]
  unfold out1_2
  rw [View.canon_unit_zero zero_offsets]
  simp only [View.ld_unit_zero (S := S4000x256) zero_offsets, View.ld_unit_zero (S := S256x256) zero_offsets]
  obtain ⟨e0, e1, e2, e3, e4, e5⟩ := index_facts t
  funext j
  show k1_pay1 (F := Ideal) (iblk1 V c 0 t) (iblk1 V c 1 t) j
    = whole (V c main_v47) (V c main_arg4) (((cfg1.win 2).blk t).view.emb j)
  refine (tile2_apply (iblk1 V c 0 t) (iblk1 V c 1 t) j).trans ?_
  refine Eq.trans ?_ (whole2_apply (V c main_v47) (V c main_arg4) (((cfg1.win 2).blk t).view.emb j)).symm
  refine Finset.sum_congr rfl fun k _ => ?_
  -- the row block's entry (p, k) is the array's entry (4000 t + p, k); the weight block is the weight array
  have h0 : ((cfg1.win 0).blk t).view.emb (ix2 (j 0) k : S4000x256.Idx)
      = (ix2 ((((cfg1.win 2).blk t).view.emb j) 0) k : S100000x256.Idx) := by
    funext a; apply Fin.ext
    match a with
    | ⟨0, _⟩ =>
      show win1_0.index t (0 : Fin 2) * 4000 + 1 * (j 0).val = win1_2.index t (0 : Fin 2) * 4000 + 1 * (j 0).val
      omega
    | ⟨1, _⟩ =>
      show win1_0.index t (1 : Fin 2) * 256 + 1 * k.val = k.val
      omega
  have h1 : ((cfg1.win 1).blk t).view.emb (ix2 k (j 1) : S256x256.Idx)
      = (ix2 k ((((cfg1.win 2).blk t).view.emb j) 1) : S256x256.Idx) := by
    funext a; apply Fin.ext
    match a with
    | ⟨0, _⟩ =>
      show win1_1.index t (0 : Fin 2) * 256 + 1 * k.val = k.val
      omega
    | ⟨1, _⟩ =>
      show win1_1.index t (1 : Fin 2) * 256 + 1 * (j 1).val = win1_2.index t (1 : Fin 2) * 256 + 1 * (j 1).val
      omega
  show xarr V c (((cfg1.win 0).blk t).view.emb (ix2 (j 0) k : S4000x256.Idx))
      * warr V c (((cfg1.win 1).blk t).view.emb (ix2 k (j 1) : S256x256.Idx)) = _
  rw [h0, h1]

/-- An index of the output array is in point `t`'s block iff each coordinate is in the block's range on its axis. -/
theorem mem_blk (t : Fin cfg1.N) (i : S100000x256.Idx) :
    i ∈ ((cfg1.win 2).blk t).view.set ↔ ∀ a : Fin 2, win1_2.index t a * S4000x256.size a ≤ (i a).val
      ∧ (i a).val < win1_2.index t a * S4000x256.size a + S4000x256.size a := by
  show i ∈ ((View.whole main_v48).slice (win1_2.rect t)).set ↔ _
  rw [View.set_slice_whole, Rect.mem_set_unit]
  exact Iff.rfl

/-- Every output index is in the block of the point `row / 4000`, which writes back. -/
theorem cover (i : S100000x256.Idx) :
    ∃ t : Fin cfg1.N, (cfg1.win 2).flush t = true ∧ i ∈ ((cfg1.win 2).blk t).view.set := by
  have hi0 : (i 0).val < 100000 := (i 0).isLt
  have hi1 : (i 1).val < 256 := (i 1).isLt
  obtain ⟨t, ht⟩ : ∃ t : Fin cfg1.N, t.val = (i 0).val / 4000 :=
    ⟨⟨(i 0).val / 4000, by show (i 0).val / 4000 < 25; omega⟩, rfl⟩
  obtain ⟨e0, e1, e2, e3, e4, e5⟩ := index_facts t
  refine ⟨t, flush1_2 t, ?_⟩
  rw [mem_blk]
  intro a
  match a with
  | ⟨0, _⟩ =>
    show win1_2.index t (0 : Fin 2) * 4000 ≤ (i 0).val ∧ (i 0).val < win1_2.index t (0 : Fin 2) * 4000 + 4000
    omega
  | ⟨1, _⟩ =>
    show win1_2.index t (1 : Fin 2) * 256 ≤ (i 1).val ∧ (i 1).val < win1_2.index t (1 : Fin 2) * 256 + 256
    omega

/-- The output array after the region: the whole product of the arrays the region was entered with. -/
theorem final (c : Dev nD) : (dat1 V c).arrAt 2 cfg1.N = whole (V c main_v47) (V c main_arg4) :=
  (dat1 V c).arrAt_eq_of_cover 2 _ (fun t _ => flushed_eq V c t) cover

end Cert.Bridge.Layer2

end
-- ==== Proof.lean ====
/- A two-layer graph convolution whose two linear transforms run as Pallas matmul kernels (4000 rows at a time, bf16
   operands into an f32 accumulator) against a reference that computes them as whole `dot_general`s; everything around
   them — self loops, degrees, symmetric edge weights, gather, scale, segment sum, bias, rectifier — is the same jnp text
   in both programs. Over the extended reals a change of float format is the identity and a product into a zero
   accumulator is the plain sum, so each kernel call leaves in its output array exactly the reference's product of the
   arrays it was entered with (Layer1, Layer2), and both programs end with `forwardValue` of the six arguments
   (KernelGlue for the kernel's boundaries, RefValue for the reference's term). No law beyond re-indexing one finite sum
   is used, so the precondition is never opened. The ideal pass rewrote nothing: `preserves` is `True`. -/
import proofs.«162196_j74191265071481_1_alg».proof.Defs
import proofs.«162196_j74191265071481_1_alg».proof.Proof.Gen.Kernel.Frame
import proofs.«162196_j74191265071481_1_alg».proof.Proof.Gen.KernelIdeal.Frame
import proofs.«162196_j74191265071481_1_alg».proof.Proof.Gen.ReferenceIdeal
import proofs.«162196_j74191265071481_1_alg».proof.Proof.Gen.Pre_finite_inputs
import proofs.«162196_j74191265071481_1_alg».proof.Proof.KernelRun
import proofs.«162196_j74191265071481_1_alg».proof.Proof.RefRunP
import proofs.«162196_j74191265071481_1_alg».proof.Proof.RefValue
import proofs.«162196_j74191265071481_1_alg».proof.Proof.KernelGlue
import proofs.«162196_j74191265071481_1_alg».proof.Proof.Layer1
import proofs.«162196_j74191265071481_1_alg».proof.Proof.Layer2
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

section
open Cert.KernelIdeal Cert.KernelIdeal.Gen

/-- The kernel's result buffer after the run: each call's output array is the whole product of the arrays it was
    entered with, and the host operations around the calls are the forward pass's. -/
theorem kernel_value (m : (ℓ : Loc nD τ sig) → Buf (Elt Ideal) ℓ) (ρ : Dev nD → PrngReg) (c : Dev nD) :
    W8 m ρ c (Proc.devRef .tc main_v64)
      = Cert.Bridge.forwardValue Ideal (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) :=
  Cert.Bridge.KernelSide.result_eq m ρ c
    ((W4_arr m ρ c 2).trans (Cert.Bridge.Layer1.final (V3 m ρ) c))
    ((W7_arr m ρ c 2).trans (Cert.Bridge.Layer2.final (V6 m ρ) c))

end

/-- Both programs, from memories that agree on the arguments, end with the forward pass of those arguments. -/
theorem algebraic : Cert.algebraic_KernelIdeal_ReferenceIdeal := by
  intro m ρ m' ρ' _ hagree
  refine ⟨fun c => Cert.Bridge.forwardValue Ideal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun _ h c => ⟨(h c).1.trans (kernel_value m ρ c), (h c).2⟩)
      (Cert.KernelIdeal.GenRun.run (F := Ideal) m ρ)
  · refine (θ_run Cert.ReferenceIdeal.defs _ _).mono (fun _ h c => ⟨(h c).1.trans ?_, (h c).2⟩)
      (Cert.ReferenceIdeal.RunP.run (F := Ideal) m' ρ')
    rw [Cert.Bridge.ref_value, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
